-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x32768x4 : Shape := ⟨3, ![256, 32768, 4]⟩
abbrev S256x256 : Shape := ⟨2, ![256, 256]⟩
abbrev S256 : Shape := ⟨1, ![256]⟩
abbrev S_ : Shape := ⟨0, ![]⟩

class Facts : Prop where
  bcast_S_S256x32768x4 : S_.BroadcastsInDim S256x32768x4 (![] : Fin 0 → Fin S256x32768x4.rank)
  reducesTo_S256x32768x4_S_d0_1_2 : S256x32768x4.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S256x32768x4 .f32) (main_arg1 : FVec F S256x256 .f32) (main_arg2 : FVec F S256 .f32) : IVec S_ 1 :=
  let main_v0 : FVec F S256x32768x4 .f32 := Host.absf main_arg0
  let main_cst : FVec F S_ .f32 := constant S_ .f32 0x7F800000#32
  let main_v1 : FVec F S256x32768x4 .f32 := broadcastInDim S256x32768x4 ![] bcast_S_S256x32768x4 main_cst
  let main_v2 : IVec S256x32768x4 1 := cmpf .olt main_v0 main_v1
  let main_c : IVec S_ 1 := constantI S_ 1 1#1
  let main_v3 : IVec S_ 1 := (fun x v => Host.reduce IntOp.andi x v reducesTo_S256x32768x4_S_d0_1_2 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S256x32768x4 : Shape := ⟨3, ![256, 32768, 4]⟩
abbrev S256x256 : Shape := ⟨2, ![256, 256]⟩
abbrev S256 : Shape := ⟨1, ![256]⟩
abbrev S256x512x64x4 : Shape := ⟨4, ![256, 512, 64, 4]⟩
abbrev S256x512x4x64 : Shape := ⟨4, ![256, 512, 4, 64]⟩
abbrev S256x512x256 : Shape := ⟨3, ![256, 512, 256]⟩
abbrev S131072x256 : Shape := ⟨2, ![131072, 256]⟩
abbrev S4096x256 : Shape := ⟨2, ![4096, 256]⟩
abbrev S1x256 : Shape := ⟨2, ![1, 256]⟩

abbrev nBuf : Space → Nat
  | .hbm => 10
  | .vmem => 6
  | .smem => 0
  | _ => 0

abbrev bufTy : (tb : Table) → Fin (tcTables nBuf tb) → BufTy
  | .hbm, ⟨0, _⟩ => ⟨S256x32768x4, .f32⟩
  | .hbm, ⟨1, _⟩ => ⟨S256x256, .f32⟩
  | .hbm, ⟨2, _⟩ => ⟨S256, .f32⟩
  | .hbm, ⟨3, _⟩ => ⟨S256x512x64x4, .f32⟩
  | .hbm, ⟨4, _⟩ => ⟨S256x512x4x64, .f32⟩
  | .hbm, ⟨5, _⟩ => ⟨S256x512x256, .f32⟩
  | .hbm, ⟨6, _⟩ => ⟨S131072x256, .f32⟩
  | .hbm, ⟨7, _⟩ => ⟨S256x256, .f32⟩
  | .hbm, ⟨8, _⟩ => ⟨S131072x256, .f32⟩
  | .hbm, ⟨9, _⟩ => ⟨S256x512x256, .f32⟩
  | .local _ .vmem, ⟨0, _⟩ => ⟨S4096x256, .f32⟩
  | .local _ .vmem, ⟨1, _⟩ => ⟨S4096x256, .f32⟩
  | .local _ .vmem, ⟨2, _⟩ => ⟨S256x256, .f32⟩
  | .local _ .vmem, ⟨3, _⟩ => ⟨S256, .f32⟩
  | .local _ .vmem, ⟨4, _⟩ => ⟨S4096x256, .f32⟩
  | .local _ .vmem, ⟨5, _⟩ => ⟨S4096x256, .f32⟩
  | _, _ => ⟨S256x32768x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S256x32768x4_S256x512x64x4 : S256x32768x4.ShapeCasts S256x512x64x4
  transposes_S256x512x64x4_S256x512x4x64_0_1_3_2 : S256x512x64x4.Transposes [0, 1, 3, 2] S256x512x4x64
  shapeCasts_S256x512x4x64_S256x512x256 : S256x512x4x64.ShapeCasts S256x512x256
  shapeCasts_S256x512x256_S131072x256 : S256x512x256.ShapeCasts S131072x256
  transposes_S256x256_S256x256_1_0 : S256x256.Transposes [1, 0] S256x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  shapeCasts_S256_S1x256 : S256.ShapeCasts S1x256
  broadcasts_S1x256_S4096x256 : S1x256.Broadcasts S4096x256
  shapeCasts_S131072x256_S256x512x256 : S131072x256.ShapeCasts S256x512x256
  dot_S4096x256_S256x256_S4096x256_1_0_0_1_n_n_wf : DotDims.WF S4096x256 S256x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S131072x256.size a
  hwx0_0 : ∀ i : grid0.Coords, EltTy.bits .f32 = 32 ∨ (Rect.block (s := S131072x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S131072x256.size a
  hwx0_3 : ∀ i : grid0.Coords, EltTy.bits .f32 = 32 ∨ (Rect.block (s := S131072x256) S4096x256.size (cc0_transform_3 i) (hinb0_3 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf

abbrev win0_0 : Pipeline.Window sig grid0 :=
  Pipeline.Window.ofSpec (Memref.whole main_v3) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S4096x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S256x32768x4 : Shape := ⟨3, ![256, 32768, 4]⟩
abbrev S256x256 : Shape := ⟨2, ![256, 256]⟩
abbrev S256 : Shape := ⟨1, ![256]⟩
abbrev S512 : Shape := ⟨1, ![512]⟩
abbrev S512x1 : Shape := ⟨2, ![512, 1]⟩
abbrev S_ : Shape := ⟨0, ![]⟩
abbrev S64 : Shape := ⟨1, ![64]⟩
abbrev S1x64 : Shape := ⟨2, ![1, 64]⟩
abbrev S512x64 : Shape := ⟨2, ![512, 64]⟩
abbrev S512x64x1 : Shape := ⟨3, ![512, 64, 1]⟩
abbrev S256x512x64x4 : Shape := ⟨4, ![256, 512, 64, 4]⟩
abbrev S256x512x4x64 : Shape := ⟨4, ![256, 512, 4, 64]⟩
abbrev S256x512x256 : Shape := ⟨3, ![256, 512, 256]⟩
abbrev S1x1x256 : Shape := ⟨3, ![1, 1, 256]⟩

abbrev nBuf : Space → Nat
  | .hbm => 31
  | .vmem => 0
  | .smem => 0
  | _ => 0

abbrev bufTy : (tb : Table) → Fin (tcTables nBuf tb) → BufTy
  | .hbm, ⟨0, _⟩ => ⟨S256x32768x4, .f32⟩
  | .hbm, ⟨1, _⟩ => ⟨S256x256, .f32⟩
  | .hbm, ⟨2, _⟩ => ⟨S256, .f32⟩
  | .hbm, ⟨3, _⟩ => ⟨S512, .i32⟩
  | .hbm, ⟨4, _⟩ => ⟨S512x1, .i32⟩
  | .hbm, ⟨5, _⟩ => ⟨S_, .i32⟩
  | .hbm, ⟨6, _⟩ => ⟨S512x1, .i32⟩
  | .hbm, ⟨7, _⟩ => ⟨S512x1, .i32⟩
  | .hbm, ⟨8, _⟩ => ⟨S64, .i32⟩
  | .hbm, ⟨9, _⟩ => ⟨S1x64, .i32⟩
  | .hbm, ⟨10, _⟩ => ⟨S512x64, .i32⟩
  | .hbm, ⟨11, _⟩ => ⟨S512x64, .i32⟩
  | .hbm, ⟨12, _⟩ => ⟨S512x64, .i32⟩
  | .hbm, ⟨13, _⟩ => ⟨S_, .i32⟩
  | .hbm, ⟨14, _⟩ => ⟨S512x64, .i32⟩
  | .hbm, ⟨15, _⟩ => ⟨S512x64, .i1⟩
  | .hbm, ⟨16, _⟩ => ⟨S_, .i32⟩
  | .hbm, ⟨17, _⟩ => ⟨S512x64, .i32⟩
  | .hbm, ⟨18, _⟩ => ⟨S512x64, .i32⟩
  | .hbm, ⟨19, _⟩ => ⟨S512x64, .i32⟩
  | .hbm, ⟨20, _⟩ => ⟨S512x64x1, .i32⟩
  | .hbm, ⟨21, _⟩ => ⟨S256x512x64x4, .f32⟩
  | .hbm, ⟨22, _⟩ => ⟨S256x512x4x64, .f32⟩
  | .hbm, ⟨23, _⟩ => ⟨S256x512x256, .f32⟩
  | .hbm, ⟨24, _⟩ => ⟨S256x512x256, .f32⟩
  | .hbm, ⟨25, _⟩ => ⟨S1x1x256, .f32⟩
  | .hbm, ⟨26, _⟩ => ⟨S256x512x256, .f32⟩
  | .hbm, ⟨27, _⟩ => ⟨S256x512x256, .f32⟩
  | .hbm, ⟨28, _⟩ => ⟨S_, .f32⟩
  | .hbm, ⟨29, _⟩ => ⟨S256x512x256, .f32⟩
  | .hbm, ⟨30, _⟩ => ⟨S256x512x256, .f32⟩
  | _, _ => ⟨S256x32768x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_call0_cst : Ref sig .tc := ⟨.hbm, 28, rfl⟩
abbrev main_call0_v0 : Ref sig .tc := ⟨.hbm, 29, rfl⟩
abbrev main_v22 : Ref sig .tc := ⟨.hbm, 30, rfl⟩

abbrev nD : Nat := 1
abbrev τ : Topo := Topo.v7x

variable {F : FTy → Type} [FloatOps F]

class Facts₀ : Prop where
  bcast_S512_S512x1_0 : S512.BroadcastsInDim S512x1 (![0] : Fin 1 → Fin S512x1.rank)
  bcast_S_S512x1 : S_.BroadcastsInDim S512x1 (![] : Fin 0 → Fin S512x1.rank)
  bcast_S64_S1x64_1 : S64.BroadcastsInDim S1x64 (![1] : Fin 1 → Fin S1x64.rank)
  bcast_S512x1_S512x64_0_1 : S512x1.BroadcastsInDim S512x64 (![0, 1] : Fin 2 → Fin S512x64.rank)
  bcast_S1x64_S512x64_0_1 : S1x64.BroadcastsInDim S512x64 (![0, 1] : Fin 2 → Fin S512x64.rank)
  bcast_S_S512x64 : S_.BroadcastsInDim S512x64 (![] : Fin 0 → Fin S512x64.rank)
  bcast_S512x64_S512x64x1_0_1 : S512x64.BroadcastsInDim S512x64x1 (![0, 1] : Fin 2 → Fin S512x64x1.rank)
  transposes_S256x512x64x4_S256x512x4x64_0_1_3_2 : S256x512x64x4.Transposes [0, 1, 3, 2] S256x512x4x64
  shapeCasts_S256x512x4x64_S256x512x256 : S256x512x4x64.ShapeCasts S256x512x256
  bcast_S256_S1x1x256_2 : S256.BroadcastsInDim S1x1x256 (![2] : Fin 1 → Fin S1x1x256.rank)
  bcast_S1x1x256_S256x512x256_0_1_2 : S1x1x256.BroadcastsInDim S256x512x256 (![0, 1, 2] : Fin 3 → Fin S256x512x256.rank)
  bcast_S_S256x512x256 : S_.BroadcastsInDim S256x512x256 (![] : Fin 0 → Fin S256x512x256.rank)
  gather_S256x32768x4_S512x64x1_S256x512x64x4_03_1_n_n_1_2_25614_wf : GatherDims.WF S256x32768x4 S512x64x1 S256x512x64x4 [0, 3] [1] [] [1] [] 2 ![256, 1, 4]
  dot_S256x512x256_S256x256_S256x512x256_2_1_01_0_n_n_wf : DotDims.WF S256x512x256 S256x256 S256x512x256 [2] [1] [0, 1] [0] [] []

variable [Facts₀]

def gather_S256x32768x4_S512x64x1_S256x512x64x4_03_1_n_n_1_2_25614 : GatherDims S256x32768x4 S512x64x1 S256x512x64x4 where
  offsetDims := [0, 3]
  collapsedSliceDims := [1]
  operandBatchingDims := []
  startIndicesBatchingDims := []
  startIndexMap := [1]
  indexVectorDim := 2
  sliceSizes := ![256, 1, 4]
  wf := gather_S256x32768x4_S512x64x1_S256x512x64x4_03_1_n_n_1_2_25614_wf
def dot_S256x512x256_S256x256_S256x512x256_2_1_01_0_n_n : DotDims S256x512x256 S256x256 S256x512x256 where
  lhsContracting := [2]
  rhsContracting := [1]
  lhsNonContracting := [0, 1]
  rhsNonContracting := [0]
  lhsBatch := []
  rhsBatch := []
  wf := dot_S256x512x256_S256x256_S256x512x256_2_1_01_0_n_n_wf

class Facts : Prop extends Facts₀ where

variable [Facts]
-- ==== Proof.PatchSpec.lean ====
/-
  The function both programs compute, index by index, on the extended reals.

  A batch element `x[bb]` is a signal of 32768 samples on 4 channels. It is cut into 512 patches of 64 consecutive
  samples; patch `n` is flattened channel-major into a feature vector of length 256: feature `k` is sample
  `n·64 + k mod 64` of channel `k / 64` (`patchFeature`). Each feature vector goes through one linear layer with
  weight `W[e, d]` (output feature `e`, input feature `d`), bias `b[e]`, and a rectifier:

      linearRelu x W b [bb, n, e] = max (∑ k, patchFeature x bb n k · W[e, k] + b[e]) 0 .

  Also here, because neither program's text is needed for it: the start-index word `n·64 + p` that the reference
  builds from two iotas, read back as a natural number (`startWord_toNat`).
-/
import Idealize.ShloMosaic.PureOps.Ideal
import Idealize.ShloMosaic.Lib.ValueIdx
import Idealize.ShloMosaic.Lib.StableHlo.Predicate

noncomputable section

open scoped BigOperators

namespace Cert.PatchLinear

open Idealize.ShloMosaic Idealize.ShloMosaic.ValueIdx

/-- The signal array [batch, sample, channel]. -/
abbrev SX : Shape := ⟨3, ![256, 32768, 4]⟩
/-- The weight [output feature, input feature]. -/
abbrev SW : Shape := ⟨2, ![256, 256]⟩
/-- The bias [output feature]. -/
abbrev SB : Shape := ⟨1, ![256]⟩
/-- The result [batch, patch, output feature]. -/
abbrev SO : Shape := ⟨3, ![256, 512, 256]⟩

/-- Feature `k` of patch `n` of batch element `bb`: sample `n·64 + k mod 64` of channel `k / 64`. -/
def patchFeature (x : FVec Ideal SX .f32) (bb : Fin 256) (n : Fin 512) (k : Fin 256) : EReal :=
  x (ix3 (n0 := 256) (n1 := 32768) (n2 := 4) bb ⟨n.val * 64 + k.val % 64, by have := n.isLt; omega⟩ ⟨k.val / 64, by have := k.isLt; omega⟩)

/-- The linear layer with rectifier applied to every patch's feature vector. -/
def linearRelu (x : FVec Ideal SX .f32) (W : FVec Ideal SW .f32) (b : FVec Ideal SB .f32) : FVec Ideal SO .f32 := fun i =>
  max ((∑ k : Fin 256, patchFeature x (i 0) (i 1) k * W (ix2 (n0 := 256) (n1 := 256) (i 2) k)) + b (ix1 (n := 256) (i 2)))
    (Ideal.ofBits .f32 0x00000000#32)

/-! ## The start index the reference builds: `n·64 + p` as a 32-bit word -/

/-- For a patch `n < 512` and an offset `p < 64` the word `n·64 + p` is a small non-negative number, so the
    `select` that wraps negative indices around keeps it, and read back signed it is `n·64 + p`. -/
theorem startWord_toNat (n : Fin 512) (p : Fin 64) :
    (Scalar.select (IntOp.cmpi .slt (IntOp.addi (IntOp.muli (BitVec.ofNat 32 n.val) 64#32) (BitVec.ofNat 32 p.val)) 0#32)
        (IntOp.addi (IntOp.addi (IntOp.muli (BitVec.ofNat 32 n.val) 64#32) (BitVec.ofNat 32 p.val)) 32768#32)
        (IntOp.addi (IntOp.muli (BitVec.ofNat 32 n.val) 64#32) (BitVec.ofNat 32 p.val))).toInt.toNat
      = n.val * 64 + p.val := by
  have hn := n.isLt
  have hp := p.isLt
  have hw : IntOp.addi (IntOp.muli (BitVec.ofNat 32 n.val) 64#32) (BitVec.ofNat 32 p.val) = BitVec.ofNat 32 (n.val * 64 + p.val) := by
    apply BitVec.eq_of_toNat_eq
    simp only [IntOp.addi, IntOp.muli, BitVec.toNat_add, BitVec.toNat_mul, BitVec.toNat_ofNat]
    omega
  rw [hw]
  have hlt : ¬ IntOp.cmpi .slt (BitVec.ofNat 32 (n.val * 64 + p.val)) 0#32 = 1#1 := by
    rw [StableHlo.Predicate.slt_iff_toNat (by simp only [BitVec.toNat_ofNat]; omega) (by decide)]
    simp
  rw [eq_zero_of_ne_one hlt, select_zero, StableHlo.Predicate.toInt_ofNat_small _ (by omega)]
  rfl

end Cert.PatchLinear

end
-- ==== Proof.LibGatherMid.lean ====
/-
  A gather along the middle axis of a rank-3 array, read at an index.

  `x[:, idx, :]` for `x : [A, N, C]` and an integer table `idx : [R, P]` lowers to `stablehlo.gather` with offset
  axes `[0, 3]`, collapsed axis `[1]`, start index map `[1]`, slice sizes `[A, 1, C]` and the table given as
  `[R, P, 1]` (index vector axis 2). Its result `[A, R, P, C]` reads, at `(a, r, p, c)`, the operand at
  `(a, idx[r, p, 0], c)`, the start index read as a signed integer and clamped into `[0, N − 1]`
  (`gather_mid_apply`). Stated for any extents; the dimension numbers' side conditions `wf` are decided on a
  program's literal shapes.
-/
import Idealize.ShloMosaic.PureOps.Ideal
import Idealize.ShloMosaic.Lib.ValueIdx

noncomputable section

namespace Cert.GatherMid

open Idealize.ShloMosaic Idealize.ShloMosaic.ValueIdx

section Gather
variable {α : Type}

/-- The dimension numbers of `x[:, idx, :]` for `x : [A, N, C]` and `idx : [R, P]` (given as `[R, P, 1]`): the
    result `[A, R, P, C]` takes axes 0 and 3 from the operand's axes 0 and 2 and indexes the operand's axis 1. -/
abbrev midDims (A N C R P : Nat)
    (wf : GatherDims.WF ⟨3, ![A, N, C]⟩ ⟨3, ![R, P, 1]⟩ ⟨4, ![A, R, P, C]⟩ [0, 3] [1] [] [1] [] 2 ![A, 1, C]) :
    GatherDims ⟨3, ![A, N, C]⟩ ⟨3, ![R, P, 1]⟩ ⟨4, ![A, R, P, C]⟩ where
  offsetDims := [0, 3]
  collapsedSliceDims := [1]
  operandBatchingDims := []
  startIndicesBatchingDims := []
  startIndexMap := [1]
  indexVectorDim := 2
  sliceSizes := ![A, 1, C]
  wf := wf

/-- On the operand's axis 0 the gather reads the result's coordinate 0. -/
theorem mid_axis0 {A N C R P w : Nat}
    (wf : GatherDims.WF ⟨3, ![A, N, C]⟩ ⟨3, ![R, P, 1]⟩ ⟨4, ![A, R, P, C]⟩ [0, 3] [1] [] [1] [] 2 ![A, 1, C])
    (idx : IVec ⟨3, ![R, P, 1]⟩ w) (j : (⟨4, ![A, R, P, C]⟩ : Shape).Idx) :
    (midDims A N C R P wf).start j idx (0 : Fin 3) + (midDims A N C R P wf).batchCoord j (0 : Fin 3)
      + (midDims A N C R P wf).offCoord j (0 : Fin 3) = (j 0).val := by
  rw [GatherDims.batchCoord_eq_zero _ _ _ List.not_mem_nil, Nat.add_zero]
  unfold GatherDims.start
  rw [dif_neg (show ¬(0 : Fin 3) ∈ ([1] : List (Fin 3)) by decide), Nat.zero_add]
  rfl

/-- On the operand's axis 2 it reads the result's coordinate 3. -/
theorem mid_axis2 {A N C R P w : Nat}
    (wf : GatherDims.WF ⟨3, ![A, N, C]⟩ ⟨3, ![R, P, 1]⟩ ⟨4, ![A, R, P, C]⟩ [0, 3] [1] [] [1] [] 2 ![A, 1, C])
    (idx : IVec ⟨3, ![R, P, 1]⟩ w) (j : (⟨4, ![A, R, P, C]⟩ : Shape).Idx) :
    (midDims A N C R P wf).start j idx (2 : Fin 3) + (midDims A N C R P wf).batchCoord j (2 : Fin 3)
      + (midDims A N C R P wf).offCoord j (2 : Fin 3) = (j 3).val := by
  rw [GatherDims.batchCoord_eq_zero _ _ _ List.not_mem_nil, Nat.add_zero]
  unfold GatherDims.start
  rw [dif_neg (show ¬(2 : Fin 3) ∈ ([1] : List (Fin 3)) by decide), Nat.zero_add]
  rfl

/-- On the operand's axis 1 it reads the start index `idx[r, p, 0]`, signed and clamped. -/
theorem mid_axis1 {A N C R P w : Nat}
    (wf : GatherDims.WF ⟨3, ![A, N, C]⟩ ⟨3, ![R, P, 1]⟩ ⟨4, ![A, R, P, C]⟩ [0, 3] [1] [] [1] [] 2 ![A, 1, C])
    (idx : IVec ⟨3, ![R, P, 1]⟩ w) (j : (⟨4, ![A, R, P, C]⟩ : Shape).Idx) :
    (midDims A N C R P wf).start j idx (1 : Fin 3) + (midDims A N C R P wf).batchCoord j (1 : Fin 3)
      + (midDims A N C R P wf).offCoord j (1 : Fin 3)
      = min (idx (ix3 (n0 := R) (n1 := P) (n2 := 1) (j 1) (j 2) ⟨0, Nat.one_pos⟩)).toInt.toNat (N - 1) := by
  rw [GatherDims.batchCoord_eq_zero _ _ _ List.not_mem_nil, Nat.add_zero,
    GatherDims.offCoord_eq_zero _ _ _ (fun h => ((GatherDims.mem_sKept _ _).mp h).1 (List.mem_singleton.mpr rfl)), Nat.add_zero]
  unfold GatherDims.start
  rw [dif_pos (show (1 : Fin 3) ∈ (midDims A N C R P wf).startIndexMap from List.mem_singleton.mpr rfl)]
  have hsi : (midDims A N C R P wf).siIdx j ⟨List.idxOf (1 : Fin 3) (midDims A N C R P wf).startIndexMap,
      List.idxOf_lt_length_iff.2 (List.mem_singleton.mpr rfl)⟩
      = ix3 (n0 := R) (n1 := P) (n2 := 1) (j 1) (j 2) ⟨0, Nat.one_pos⟩ := by
    funext b; refine Fin.ext ?_
    match b with
    | ⟨0, _⟩ => rfl
    | ⟨1, _⟩ => rfl
    | ⟨2, _⟩ => rfl
  rw [hsi]
  rfl

/-- Result element `(a, r, p, c)` is the operand at `(a, idx[r, p, 0], c)`, the start index read signed and clamped
    into `[0, N − 1]`. -/
theorem gather_mid_apply {A N C R P w : Nat} (hN : 0 < N)
    (wf : GatherDims.WF ⟨3, ![A, N, C]⟩ ⟨3, ![R, P, 1]⟩ ⟨4, ![A, R, P, C]⟩ [0, 3] [1] [] [1] [] 2 ![A, 1, C])
    (x : (⟨3, ![A, N, C]⟩ : Shape).Idx → α) (idx : IVec ⟨3, ![R, P, 1]⟩ w) (j : (⟨4, ![A, R, P, C]⟩ : Shape).Idx) :
    Host.gather (midDims A N C R P wf) x idx j
      = x (ix3 (n0 := A) (n1 := N) (n2 := C) (j 0)
          ⟨min (idx (ix3 (n0 := R) (n1 := P) (n2 := 1) (j 1) (j 2) ⟨0, Nat.one_pos⟩)).toInt.toNat (N - 1), by omega⟩ (j 3)) := by
  unfold Host.gather
  congr 1
  funext a
  refine Fin.ext ?_
  show (midDims A N C R P wf).start j idx a + (midDims A N C R P wf).batchCoord j a + (midDims A N C R P wf).offCoord j a = _
  match a with
  | ⟨0, _⟩ => exact mid_axis0 wf idx j
  | ⟨1, _⟩ => exact mid_axis1 wf idx j
  | ⟨2, _⟩ => exact mid_axis2 wf idx j

end Gather

end Cert.GatherMid

end
-- ==== Proof.RefValue.lean ====
/-
  The reference program, read at an index, computes `linearRelu`.

  The reference builds the table of start indices `idx[n, p] = n·64 + p` from two iotas, gathers
  `x[:, idx, :]` (patch `n`, sample offset `p`, all channels), swaps the last two axes so that a patch is laid out
  channel-major, flattens it to 256 features, contracts the features with `W`'s second axis, adds the bias and
  takes the maximum with zero. Read at `[bb, n, e]` this is `linearRelu x W b` term for term: the only work is to
  follow the index through the reshape, the transpose and the gather down to the sample `n·64 + k mod 64` of
  channel `k / 64`.
-/
import proofs.«182232_j52218212385438_1_alg».proof.Proof.Gen.ReferenceIdeal.Read
import proofs.«182232_j52218212385438_1_alg».proof.Proof.PatchSpec
import proofs.«182232_j52218212385438_1_alg».proof.Proof.LibGatherMid

noncomputable section

open scoped BigOperators

namespace Cert.ReferenceIdeal.RefValue

open Cert.ReferenceIdeal Cert.ReferenceIdeal.Gen Cert.ReferenceIdeal.Read
open Idealize.ShloMosaic Idealize.ShloMosaic.ValueIdx Cert.PatchLinear Cert.GatherMid

/-- The start index of patch `n` at sample offset `p`, read back as a number: `n·64 + p`. -/
theorem start_apply (n : Fin 512) (p : Fin 64) :
    (val_main_v14 (F := Ideal) (ix3 (n0 := 512) (n1 := 64) (n2 := 1) n p ⟨0, Nat.one_pos⟩)).toInt.toNat = n.val * 64 + p.val := by
  rw [val_main_v14_apply, val_main_v13_apply, val_main_v10_apply, val_main_v12_apply, val_main_v8_apply,
    val_main_v6_apply, val_main_v7_apply, val_main_v3_apply, val_main_v5_apply, val_main_v1_apply, val_main_v2_apply,
    val_main_v9_apply, val_main_v11_apply, val_main_v0_apply, val_main_v4_apply, val_main_c_apply, val_main_c_0_apply,
    val_main_c_1_apply]
  exact startWord_toNat n p

/-- The gathered array at patch `n`, offset `p`, channel `c` is the signal's sample `n·64 + p` of that channel:
    the start index is in range, so the clamp does nothing. -/
theorem gathered_apply (x0 : FVec Ideal S256x32768x4 .f32) (bb : Fin 256) (n : Fin 512) (p : Fin 64) (c : Fin 4) :
    val_main_v15 (F := Ideal) x0 (ix4 (n0 := 256) (n1 := 512) (n2 := 64) (n3 := 4) bb n p c)
      = x0 (ix3 (n0 := 256) (n1 := 32768) (n2 := 4) bb ⟨n.val * 64 + p.val, by have := n.isLt; have := p.isLt; omega⟩ c) := by
  unfold val_main_v15
  show Host.gather (midDims 256 32768 4 512 64 _) x0 _ _ = _
  rw [gather_mid_apply (by decide)]
  congr 1
  funext a; refine Fin.ext ?_
  match a with
  | ⟨0, _⟩ => rfl
  | ⟨1, _⟩ =>
    show min (val_main_v14 (F := Ideal) (ix3 (n0 := 512) (n1 := 64) (n2 := 1) n p ⟨0, Nat.one_pos⟩)).toInt.toNat (32768 - 1) = n.val * 64 + p.val
    rw [start_apply]
    have := n.isLt; have := p.isLt; omega
  | ⟨2, _⟩ => rfl

/-- Feature `k` of the flattened patch: the reshape splits `k` into channel `k / 64` and offset `k mod 64`, the
    transpose swaps them back into the gathered array's order. -/
theorem feature_apply (x0 : FVec Ideal S256x32768x4 .f32) (bb : Fin 256) (n : Fin 512) (k : Fin 256) :
    val_main_v17 (F := Ideal) x0 (ix3 (n0 := 256) (n1 := 512) (n2 := 256) bb n k) = patchFeature x0 bb n k := by
  rw [val_main_v17_apply, val_main_v16_apply]
  have hb := bb.isLt; have hn := n.isLt; have hk := k.isLt
  have e : idx_main_v16 (idx_main_v17 (ix3 (n0 := 256) (n1 := 512) (n2 := 256) bb n k))
      = ix4 (n0 := 256) (n1 := 512) (n2 := 64) (n3 := 4) bb n ⟨k.val % 64, by omega⟩ ⟨k.val / 64, by omega⟩ := by
    funext a; refine Fin.ext ?_
    match a with
    | ⟨0, _⟩ => show ((bb.val * 512 + n.val) * 256 + k.val) / 131072 = bb.val; omega
    | ⟨1, _⟩ => show ((bb.val * 512 + n.val) * 256 + k.val) / 256 % 512 = n.val; omega
    | ⟨2, _⟩ => show ((bb.val * 512 + n.val) * 256 + k.val) % 64 = k.val % 64; omega
    | ⟨3, _⟩ => show ((bb.val * 512 + n.val) * 256 + k.val) / 64 % 4 = k.val / 64; omega
  rw [e, gathered_apply]
  rfl

/-- The reference's result is `linearRelu` of its arguments. -/
theorem result_eq (x0 : FVec Ideal S256x32768x4 .f32) (x1 : FVec Ideal S256x256 .f32) (x2 : FVec Ideal S256 .f32) :
    val_main_v22 (F := Ideal) x0 x1 x2 = linearRelu x0 x1 x2 := by
  funext i
  obtain ⟨bb, n, e, rfl⟩ : ∃ (bb : Fin 256) (n : Fin 512) (e : Fin 256), i = ix3 bb n e := ⟨i 0, i 1, i 2, eq_ix3 i⟩
  rw [val_main_v22_apply, val_main_v21_apply, val_main_v18_apply, val_main_v20_apply, val_main_v19_apply,
    val_main_call0_v0_apply, val_main_call0_cst_apply]
  unfold linearRelu
  show max ((∑ k : Fin 256, _) + _) _ = max ((∑ k : Fin 256, _) + _) _
  congr 1
  congr 1
  · refine Finset.sum_congr rfl fun k _ => ?_
    have el : lidx_main_v18 (ix3 (n0 := 256) (n1 := 512) (n2 := 256) bb n e) k = ix3 (n0 := 256) (n1 := 512) (n2 := 256) bb n k :=
      funext fun a => Fin.ext (by match a with | ⟨0, _⟩ => rfl | ⟨1, _⟩ => rfl | ⟨2, _⟩ => rfl)
    have er : ridx_main_v18 (ix3 (n0 := 256) (n1 := 512) (n2 := 256) bb n e) k = ix2 (n0 := 256) (n1 := 256) e k :=
      funext fun a => Fin.ext (by match a with | ⟨0, _⟩ => rfl | ⟨1, _⟩ => rfl)
    rw [el, er, feature_apply]
  · refine congrArg x2 (funext fun a => Fin.ext ?_)
    match a with
    | ⟨0, _⟩ => rfl

end Cert.ReferenceIdeal.RefValue

end
-- ==== Proof.KernelBody.lean ====
/-
  What the kernel body stores, read at one element.

  At a grid point the body holds a block `a` of 4096 feature rows, the whole transposed weight `wt[k, e]` and the
  bias. It multiplies `a` by `wt` into a zero accumulator, adds the bias to every row and takes the maximum with
  zero. On the extended reals the two narrowings to bf16 are the identity, so the stored element `(r, e)` is

      max (∑ k, a[r, k] · wt[k, e] + bias[e]) 0 .
-/
import proofs.«182232_j52218212385438_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Body

open Cert.KernelIdeal Cert.KernelIdeal.Gen
open Idealize.ShloMosaic Idealize.ShloMosaic.ValueIdx

/-! ## The product's operand indices, axis by axis -/

theorem lhs_axis0 (i : S4096x256.Idx) (q : dot_S4096x256_S256x256_S4096x256_1_0_0_1_n_n.contr.Idx) :
    (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
  rfl
theorem lhs_axis1 (i : S4096x256.Idx) (q : dot_S4096x256_S256x256_S4096x256_1_0_0_1_n_n.contr.Idx) :
    (dot_S4096x256_S256x256_S4096x256_1_0_0_1_n_n.lhsIdx i q 1).val = (q ⟨0, by decide⟩).val :=
  dot_S4096x256_S256x256_S4096x256_1_0_0_1_n_n.lhsIdx_val_of_single rfl i q
theorem rhs_axis0 (i : S4096x256.Idx) (q : dot_S4096x256_S256x256_S4096x256_1_0_0_1_n_n.contr.Idx) :
    (dot_S4096x256_S256x256_S4096x256_1_0_0_1_n_n.rhsIdx i q 0).val = (q ⟨0, by decide⟩).val :=
  dot_S4096x256_S256x256_S4096x256_1_0_0_1_n_n.rhsIdx_val_of_single rfl i q
theorem rhs_axis1 (i : S4096x256.Idx) (q : dot_S4096x256_S256x256_S4096x256_1_0_0_1_n_n.contr.Idx) :
    (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
  rfl

/-- The block product into a zero accumulator, at row `r` and column `e`: the sum over the 256 features. -/
theorem product_apply {φ₁ φ₂ : FTy} (a : FVec Ideal S4096x256 φ₁) (wt : FVec Ideal S256x256 φ₂) (r : Fin 4096) (e : Fin 256) :
    matmul dot_S4096x256_S256x256_S4096x256_1_0_0_1_n_n none a wt (constant S4096x256 .f32 0x00000000#32) (ix2 (n0 := 4096) (n1 := 256) r e)
      = ∑ k : Fin 256, a (ix2 (n0 := 4096) (n1 := 256) r k) * wt (ix2 (n0 := 256) (n1 := 256) k e) := by
  simp only [matmul]
  rw [Ideal.matmul_constant_zero_apply, ← Equiv.sum_comp (contrEquiv1 dot_S4096x256_S256x256_S4096x256_1_0_0_1_n_n 256 rfl rfl).symm]
  refine Finset.sum_congr rfl fun k _ => ?_
  have hk := contrEquiv1_symm_val dot_S4096x256_S256x256_S4096x256_1_0_0_1_n_n 256 rfl rfl k
  have el : dot_S4096x256_S256x256_S4096x256_1_0_0_1_n_n.lhsIdx (ix2 (n0 := 4096) (n1 := 256) r e) ((contrEquiv1 dot_S4096x256_S256x256_S4096x256_1_0_0_1_n_n 256 rfl rfl).symm k) = ix2 (n0 := 4096) (n1 := 256) r k := funext fun ax => Fin.ext (by
    match ax with
    | ⟨0, _⟩ => exact lhs_axis0 _ _
    | ⟨1, _⟩ => exact (lhs_axis1 _ _).trans hk)
  have er : dot_S4096x256_S256x256_S4096x256_1_0_0_1_n_n.rhsIdx (ix2 (n0 := 4096) (n1 := 256) r e) ((contrEquiv1 dot_S4096x256_S256x256_S4096x256_1_0_0_1_n_n 256 rfl rfl).symm k) = ix2 (n0 := 256) (n1 := 256) k e := funext fun ax => Fin.ext (by
    match ax with
    | ⟨0, _⟩ => exact (rhs_axis0 _ _).trans hk
    | ⟨1, _⟩ => exact rhs_axis1 _ _)
  rw [el, er]

/-- The bias laid out as one row and repeated over the 4096 rows reads, at `(r, e)`, `bias[e]`. -/
theorem biasRows_apply {α : Type} (bias : S256.Idx → α) (r : Fin 4096) (e : Fin 256) :
    broadcastTo S4096x256 (shapeCast S1x256 bias shapeCasts_S256_S1x256) broadcasts_S1x256_S4096x256 (ix2 (n0 := 4096) (n1 := 256) r e)
      = bias (ix1 (n := 256) e) := by
  rw [broadcastTo_1b_ab_apply, shapeCast_a_1a_apply]

/-- THE STORED ELEMENT: the rectified affine image of feature row `r`, output feature `e`. -/
theorem stored_apply (a : Vec Ideal S4096x256 .f32) (wt : Vec Ideal S256x256 .f32) (bias : Vec Ideal S256 .f32)
    (r : Fin 4096) (e : Fin 256) :
    k0_pay1 (F := Ideal) a wt bias (ix2 (n0 := 4096) (n1 := 256) r e)
      = max ((∑ k : Fin 256, a (ix2 (n0 := 4096) (n1 := 256) r k) * wt (ix2 (n0 := 256) (n1 := 256) k e)) + bias (ix1 (n := 256) e))
          (Ideal.ofBits .f32 0x00000000#32) := by
  unfold k0_pay1
  rw [maximumf_apply, addf_apply, product_apply, biasRows_apply, shapeCast_self, shapeCast_self]
  rfl

end Cert.KernelIdeal.Body

end
-- ==== Proof.KernelBlocks.lean ====
/-
  From the grid's blocks to the whole output array.

  The region runs 32 grid points. Point `t` is given rows `t·4096 … t·4096 + 4095` of the feature-row array, the
  whole transposed weight and the whole bias, and writes back rows `t·4096 … t·4096 + 4095` of the output. What the
  body stores at `(r, e)` depends on row `r` of its block only, so every written block is a restriction of ONE
  function of the three arrays as the region finds them,

      rowsResult A Wt bias [R, e] = max (∑ k, A[R, k] · Wt[k, e] + bias[e]) 0 ,

  and the 32 blocks tile the 131072 rows: after the run the output array is `rowsResult`.
-/
import proofs.«182232_j52218212385438_1_alg».proof.Proof.Gen.KernelIdeal.Frame
import proofs.«182232_j52218212385438_1_alg».proof.Proof.KernelBody

set_option maxRecDepth 16384

noncomputable section

open scoped BigOperators

namespace Cert.KernelIdeal.Blocks

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Body

variable (m : (ℓ : Loc nD τ sig) → Buf (Elt Ideal) ℓ)

theorem offsets2 : (![0, 0] : Fin 2 → Nat) = fun _ => 0 := funext fun a => by fin_cases a <;> rfl
theorem offsets1 : (![0] : Fin 1 → Nat) = fun _ => 0 := funext fun a => by fin_cases a <;> rfl

/-- The output array as one function of the feature rows, the transposed weight and the bias. -/
def rowsResult (A : Vec Ideal S131072x256 .f32) (Wt : Vec Ideal S256x256 .f32) (bias : Vec Ideal S256 .f32) :
    Vec Ideal S131072x256 .f32 := fun i =>
  max ((∑ k : Fin 256, A (ix2 (n0 := 131072) (n1 := 256) (i 0) k) * Wt (ix2 (n0 := 256) (n1 := 256) k (i 1))) + bias (ix1 (n := 256) (i 1)))
    (Ideal.ofBits .f32 0x00000000#32)

theorem rowsResult_apply (A : Vec Ideal S131072x256 .f32) (Wt : Vec Ideal S256x256 .f32) (bias : Vec Ideal S256 .f32)
    (R : Fin 131072) (e : Fin 256) :
    rowsResult A Wt bias (ix2 (n0 := 131072) (n1 := 256) R e)
      = max ((∑ k : Fin 256, A (ix2 (n0 := 131072) (n1 := 256) R k) * Wt (ix2 (n0 := 256) (n1 := 256) k e)) + bias (ix1 (n := 256) e))
          (Ideal.ofBits .f32 0x00000000#32) := rfl

/-- The printed index maps, decided over the 32 points: the feature rows' and the output's block index is the point
    itself on the row axis, every other block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

theorem point_lt (t : Fin cfg0.N) : t.val < 32 := lt_of_lt_of_eq t.isLt N_0

/-! ## The input blocks, read where they sit in their arrays -/

/-- Row `r` of point `t`'s feature block is row `t·4096 + r` of the feature-row array. -/
theorem rowsBlock_apply (c : Dev nD) (t : Fin cfg0.N) (r : Fin 4096) (k : Fin 256) :
    iblk m c 0 t (ix2 (n0 := 4096) (n1 := 256) r k)
      = V m c main_v3 (ix2 (n0 := 131072) (n1 := 256) ⟨t.val * 4096 + r.val, by have := point_lt t; have := r.isLt; omega⟩ k) := by
  obtain ⟨e0, e1, -⟩ := idx_facts t
  show V m c main_v3 (((cfg0.win 0).blk t).view.emb (ix2 (n0 := 4096) (n1 := 256) r k)) = _
  refine congrArg (V m c main_v3) (funext fun a => Fin.ext ?_)
  match a with
  | ⟨0, _⟩ => show win0_0.index t (0 : Fin 2) * 4096 + 1 * r.val = t.val * 4096 + r.val; omega
  | ⟨1, _⟩ => show win0_0.index t (1 : Fin 2) * 256 + 1 * k.val = k.val; omega

/-- Every point's weight block is the whole transposed weight. -/
theorem weightBlock_apply (c : Dev nD) (t : Fin cfg0.N) (k : Fin 256) (e : Fin 256) :
    iblk m c 1 t (ix2 (n0 := 256) (n1 := 256) k e) = V m c main_v4 (ix2 (n0 := 256) (n1 := 256) k e) := by
  obtain ⟨-, -, e2, e3, -⟩ := idx_facts t
  show V m c main_v4 (((cfg0.win 1).blk t).view.emb (ix2 (n0 := 256) (n1 := 256) k e)) = _
  refine congrArg (V m c main_v4) (funext fun a => Fin.ext ?_)
  match a with
  | ⟨0, _⟩ => show win0_1.index t (0 : Fin 2) * 256 + 1 * k.val = k.val; omega
  | ⟨1, _⟩ => show win0_1.index t (1 : Fin 2) * 256 + 1 * e.val = e.val; omega

/-- Every point's bias block is the whole bias. -/
theorem biasBlock_apply (c : Dev nD) (t : Fin cfg0.N) (e : Fin 256) :
    iblk m c 2 t (ix1 (n := 256) e) = V m c main_arg2 (ix1 (n := 256) e) := by
  obtain ⟨-, -, -, -, e4, -⟩ := idx_facts t
  show V m c main_arg2 (((cfg0.win 2).blk t).view.emb (ix1 (n := 256) e)) = _
  refine congrArg (V m c main_arg2) (funext fun a => Fin.ext ?_)
  match a with
  | ⟨0, _⟩ => show win0_2.index t (0 : Fin 1) * 256 + 1 * e.val = e.val; omega

/-- Element `(r, e)` of point `t`'s output block sits at row `t·4096 + r` of the output array. -/
theorem outBlock_emb (t : Fin cfg0.N) (r : Fin 4096) (e : Fin 256) :
    ((cfg0.win 3).blk t).view.emb (ix2 (n0 := 4096) (n1 := 256) r e)
      = ix2 (n0 := 131072) (n1 := 256) ⟨t.val * 4096 + r.val, by have := point_lt t; have := r.isLt; omega⟩ e := by
  obtain ⟨-, -, -, -, -, e5, e6⟩ := idx_facts t
  funext a; refine Fin.ext ?_
  match a with
  | ⟨0, _⟩ => show win0_3.index t (0 : Fin 2) * 4096 + 1 * r.val = t.val * 4096 + r.val; omega
  | ⟨1, _⟩ => show win0_3.index t (1 : Fin 2) * 256 + 1 * e.val = e.val; omega

/-! ## What a point writes back -/

/-- WHAT POINT `t` WRITES BACK is block `t` of `rowsResult` of the three arrays as the region finds them. -/
theorem flushed_eq (c : Dev nD) (t : Fin cfg0.N) :
    (dats m 0 c).flushed 3 t
      = ((cfg0.win 3).blk t).view.read (Elt Ideal) (rowsResult (V m c main_v3) (V m c main_v4) (V m c main_arg2)) := by
  show (cfg0.win 3).cut (grid0.coords t) ((dats m 0 c).after 3 t) = _
  rw [after0_3]
  unfold out0_3
  rw [View.canon_unit_zero offsets2]
  simp only [View.ld_unit_zero (S := S4096x256) offsets2, View.ld_unit_zero (S := S256x256) offsets2, View.ld_unit_zero (S := S256) offsets1]
  funext j
  obtain ⟨r, e, rfl⟩ : ∃ (r : Fin 4096) (e : Fin 256), j = ix2 (n0 := 4096) (n1 := 256) r e := ⟨j 0, j 1, eq_ix2 j⟩
  refine (stored_apply (iblk m c 0 t) (iblk m c 1 t) (iblk m c 2 t) r e).trans ?_
  show _ = rowsResult (V m c main_v3) (V m c main_v4) (V m c main_arg2) (((cfg0.win 3).blk t).view.emb (ix2 (n0 := 4096) (n1 := 256) r e))
  rw [outBlock_emb, rowsResult_apply]
  refine congrArg₂ max (congrArg₂ (· + ·) (Finset.sum_congr rfl fun k _ => ?_) (biasBlock_apply m c t e)) rfl
  rw [rowsBlock_apply, weightBlock_apply]

/-! ## The blocks tile the array -/

/-- An index of the output array is in point `t`'s block iff each coordinate is in the block's range on its axis. -/
theorem mem_blk (t : Fin cfg0.N) (i : S131072x256.Idx) :
    i ∈ ((cfg0.win 3).blk t).view.set ↔ ∀ a : Fin 2, win0_3.index t a * S4096x256.size a ≤ (i a).val ∧ (i a).val < win0_3.index t a * S4096x256.size a + S4096x256.size a := by
  show i ∈ ((View.whole main_v5).slice (win0_3.rect t)).set ↔ _
  rw [View.set_slice_whole, Rect.mem_set_unit]
  exact Iff.rfl

/-- Row `R` is written by point `R / 4096`. -/
theorem cover (i : S131072x256.Idx) :
    ∃ t : Fin cfg0.N, (cfg0.win 3).flush t = true ∧ i ∈ ((cfg0.win 3).blk t).view.set := by
  have h0 : (i 0).val < 131072 := (i 0).isLt
  have h1 : (i 1).val < 256 := (i 1).isLt
  have hN : (i 0).val / 4096 < cfg0.N := by rw [show cfg0.N = 32 from N_0]; omega
  obtain ⟨-, -, -, -, -, e5, e6⟩ := idx_facts ⟨(i 0).val / 4096, hN⟩
  refine ⟨⟨(i 0).val / 4096, hN⟩, flush0_3 _, ?_⟩
  rw [mem_blk]
  intro a
  match a with
  | ⟨0, _⟩ =>
    show win0_3.index ⟨(i 0).val / 4096, hN⟩ (0 : Fin 2) * 4096 ≤ (i 0).val ∧ (i 0).val < win0_3.index ⟨(i 0).val / 4096, hN⟩ (0 : Fin 2) * 4096 + 4096
    rw [e5]; show (i 0).val / 4096 * 4096 ≤ (i 0).val ∧ (i 0).val < (i 0).val / 4096 * 4096 + 4096; omega
  | ⟨1, _⟩ =>
    show win0_3.index ⟨(i 0).val / 4096, hN⟩ (1 : Fin 2) * 256 ≤ (i 1).val ∧ (i 1).val < win0_3.index ⟨(i 0).val / 4096, hN⟩ (1 : Fin 2) * 256 + 256
    rw [e6]; omega

/-- THE OUTPUT ARRAY after the run. -/
theorem final (c : Dev nD) :
    (dats m 0 c).arrAt 3 cfg0.N = rowsResult (V m c main_v3) (V m c main_v4) (V m c main_arg2) :=
  (dats m 0 c).arrAt_eq_of_cover 3 _ (fun t _ => flushed_eq m c t) cover

end Cert.KernelIdeal.Blocks

end
-- ==== Proof.KernelEntry.lean ====
/-
  The arrays the region finds, read at an index.

  Before the region the program lays the signal out as feature rows: `x : [256, 32768, 4]` is viewed as
  `[256, 512, 64, 4]` (batch, patch, sample in patch, channel), its last two axes are swapped, and the result is
  flattened twice, to `[256, 512, 256]` and then to `[131072, 256]`. Row `bb·512 + n` of that array is the feature
  vector of patch `n` of batch element `bb`: its entry `k` is `patchFeature x bb n k`. The weight is transposed, so
  its entry `(k, e)` is `W[e, k]`.
-/
import proofs.«182232_j52218212385438_1_alg».proof.Proof.Gen.KernelIdeal.Frame
import proofs.«182232_j52218212385438_1_alg».proof.Proof.PatchSpec
import Idealize.ShloMosaic.Lib.StableHlo.Run
import Idealize.ShloMosaic.Lib.Pipeline.Value
import Idealize.ShloMosaic.Lib.ValueLayout

noncomputable section

namespace Cert.KernelIdeal.Entry

open Idealize.ShloMosaic Idealize.ShloMosaic.TcCoe Idealize.ShloMosaic.ValueIdx Idealize.ShloMosaic.StableHlo
open Idealize.SL Idealize.SL.Sem
open Cert.KernelIdeal Cert.KernelIdeal.Gen Cert.PatchLinear

variable (m : (ℓ : Loc nD τ sig) → Buf (Elt Ideal) ℓ)

/-- The feature-row array is the signal reshaped, transposed and flattened twice. -/
theorem featureRows_eq (c : Dev nD) :
    (V m c main_v3 : Vec Ideal S131072x256 .f32)
      = shapeCast S131072x256 (shapeCast S256x512x256 (transpose S256x512x4x64 [0, 1, 3, 2]
          (shapeCast S256x512x64x4 (m ((c : Thread nD τ).loc main_arg0)) shapeCasts_S256x32768x4_S256x512x64x4)
          transposes_S256x512x64x4_S256x512x4x64_0_1_3_2) shapeCasts_S256x512x4x64_S256x512x256) shapeCasts_S256x512x256_S131072x256 := by
  show StableHlo.after hostOps0 (fun b => m (c, b)) (Proc.devRef .tc main_v3) = _
  after_results
  rfl

/-- The weight as the region finds it is the weight transposed. -/
theorem weightT_eq (c : Dev nD) :
    (V m c main_v4 : Vec Ideal S256x256 .f32)
      = transpose S256x256 [1, 0] (m ((c : Thread nD τ).loc main_arg1)) transposes_S256x256_S256x256_1_0 := by
  show StableHlo.after hostOps0 (fun b => m (c, b)) (Proc.devRef .tc main_v4) = _
  after_results

/-- Entry `k` of row `bb·512 + n` is feature `k` of patch `n` of batch element `bb`. -/
theorem featureRows_apply (c : Dev nD) (bb : Fin 256) (n : Fin 512) (k : Fin 256) :
    V m c main_v3 (ix2 (n0 := 131072) (n1 := 256) ⟨bb.val * 512 + n.val, by have := bb.isLt; have := n.isLt; omega⟩ k)
      = patchFeature (m ((c : Thread nD τ).loc main_arg0)) bb n k := by
  have hb := bb.isLt; have hn := n.isLt; have hk := k.isLt
  rw [featureRows_eq]
  -- [131072, 256] at (bb·512 + n, k) is [256, 512, 256] at (bb, n, k)
  refine (shapeCast_apply _ shapeCasts_S256x512x256_S131072x256 _
    (ix3 (n0 := 256) (n1 := 512) (n2 := 256) bb n k) (by
      rw [Shape.rowMajor_val_three, Shape.rowMajor_val_two]
      show (bb.val * 512 + n.val) * 256 + k.val = (bb.val * 512 + n.val) * 256 + k.val; rfl)).trans ?_
  -- [256, 512, 256] at (bb, n, k) is [256, 512, 4, 64] at (bb, n, k / 64, k mod 64)
  refine (shapeCast_apply _ shapeCasts_S256x512x4x64_S256x512x256 _
    (ix4 (n0 := 256) (n1 := 512) (n2 := 4) (n3 := 64) bb n ⟨k.val / 64, by omega⟩ ⟨k.val % 64, by omega⟩) (by
      rw [Shape.rowMajor_val_four, Shape.rowMajor_val_three]
      show ((bb.val * 512 + n.val) * 4 + k.val / 64) * 64 + k.val % 64 = (bb.val * 512 + n.val) * 256 + k.val; omega)).trans ?_
  -- the transpose swaps channel and sample offset
  refine (transpose_apply [0, 1, 3, 2] _ transposes_S256x512x64x4_S256x512x4x64_0_1_3_2 _
    (ix4 (n0 := 256) (n1 := 512) (n2 := 64) (n3 := 4) bb n ⟨k.val % 64, by omega⟩ ⟨k.val / 64, by omega⟩) (fun b => match b with
      | ⟨0, _⟩ => rfl
      | ⟨1, _⟩ => rfl
      | ⟨2, _⟩ => rfl
      | ⟨3, _⟩ => rfl)).trans ?_
  -- [256, 512, 64, 4] at (bb, n, p, ch) is the signal at (bb, n·64 + p, ch)
  refine (shapeCast_apply _ shapeCasts_S256x32768x4_S256x512x64x4 _
    (ix3 (n0 := 256) (n1 := 32768) (n2 := 4) bb ⟨n.val * 64 + k.val % 64, by omega⟩ ⟨k.val / 64, by omega⟩) (by
      rw [Shape.rowMajor_val_three, Shape.rowMajor_val_four]
      show (bb.val * 32768 + (n.val * 64 + k.val % 64)) * 4 + k.val / 64 = ((bb.val * 512 + n.val) * 64 + k.val % 64) * 4 + k.val / 64; omega)).trans ?_
  rfl

/-- Entry `(k, e)` of the transposed weight is `W[e, k]`. -/
theorem weightT_apply (c : Dev nD) (k : Fin 256) (e : Fin 256) :
    V m c main_v4 (ix2 (n0 := 256) (n1 := 256) k e) = m ((c : Thread nD τ).loc main_arg1) (ix2 (n0 := 256) (n1 := 256) e k) := by
  rw [weightT_eq]
  exact transpose_ix2_apply _ transposes_S256x256_S256x256_1_0 k e

end Cert.KernelIdeal.Entry

end
-- ==== Proof.KernelRun.lean ====
/-
  The idealized kernel's run, with its result named.

  After the region the program reshapes the output array `[131072, 256]` to `[256, 512, 256]`: element
  `[bb, n, e]` of the result is element `(bb·512 + n, e)` of the output array, which is `rowsResult` of the arrays the
  region found. Row `bb·512 + n` of the feature rows is patch `n` of batch element `bb` and the transposed weight at
  `(k, e)` is `W[e, k]`, so the result is `linearRelu x W b`.
-/
import proofs.«182232_j52218212385438_1_alg».proof.Proof.KernelBlocks
import proofs.«182232_j52218212385438_1_alg».proof.Proof.KernelEntry

noncomputable section

open scoped BigOperators

namespace Cert.KernelIdeal.Result

open Idealize.ShloMosaic Idealize.ShloMosaic.TcCoe Idealize.ShloMosaic.ValueIdx Idealize.ShloMosaic.StableHlo
open Idealize.SL Idealize.SL.Sem
open Cert.KernelIdeal Cert.KernelIdeal.Gen Cert.KernelIdeal.Blocks Cert.KernelIdeal.Entry Cert.PatchLinear

variable (m : (ℓ : Loc nD τ sig) → Buf (Elt Ideal) ℓ) (ρ : Dev nD → PrngReg)

/-- Row `bb·512 + n` of `rowsResult` is `linearRelu` at `[bb, n, ·]`, once the feature rows, the transposed weight and
    the bias are read back to the signal, the weight and the bias. -/
theorem rows_to_linear (A : Vec Ideal S131072x256 .f32) (Wt : Vec Ideal S256x256 .f32) (bias : Vec Ideal S256 .f32)
    (x : FVec Ideal SX .f32) (W : FVec Ideal SW .f32) (b : FVec Ideal SB .f32) (bb : Fin 256) (n : Fin 512) (e : Fin 256)
    (hR : bb.val * 512 + n.val < 131072)
    (hA : ∀ k : Fin 256, A (ix2 (n0 := 131072) (n1 := 256) ⟨bb.val * 512 + n.val, hR⟩ k) = patchFeature x bb n k)
    (hW : ∀ k : Fin 256, Wt (ix2 (n0 := 256) (n1 := 256) k e) = W (ix2 (n0 := 256) (n1 := 256) e k))
    (hb : bias (ix1 (n := 256) e) = b (ix1 (n := 256) e)) :
    rowsResult A Wt bias (ix2 (n0 := 131072) (n1 := 256) ⟨bb.val * 512 + n.val, hR⟩ e)
      = linearRelu x W b (ix3 (n0 := 256) (n1 := 512) (n2 := 256) bb n e) := by
  rw [rowsResult_apply]
  unfold linearRelu
  exact congrArg₂ max (congrArg₂ (· + ·) (Finset.sum_congr rfl fun k _ => by rw [hA, hW]) hb) rfl

/-- What the program's last line leaves in the result buffer. -/
theorem result_eq (c : Dev nD) :
    (Pipeline.afterTail₀ cfgs (dats m) 0 (V0 m) [hostOps1] c main_v6 : Vec Ideal S256x512x256 .f32)
      = linearRelu (m ((c : Thread nD τ).loc main_arg0)) (m ((c : Thread nD τ).loc main_arg1)) (m ((c : Thread nD τ).loc main_arg2)) := by
  have hw : Pipeline.withArrays (cfgs 0).spec c (V0 m c) (fun w => (dats m 0 c).arrAt w (cfgs 0).N) (Proc.devRef .tc main_v5)
      = rowsResult (V m c main_v3) (V m c main_v4) (V m c main_arg2) :=
    (Pipeline.withArrays_arr spec0 launch0.win.arr_inj c _ _ 3).trans (final m c)
  unfold Pipeline.afterTail₀
  show StableHlo.after hostOps1 _ (Proc.devRef .tc main_v6) = _
  after_results
  show shapeCast S256x512x256 (Pipeline.withArrays (cfgs 0).spec c (V0 m c) (fun w => (dats m 0 c).arrAt w (cfgs 0).N) (Proc.devRef .tc main_v5))
    shapeCasts_S131072x256_S256x512x256 = _
  rw [hw]
  funext i
  obtain ⟨bb, n, e, rfl⟩ : ∃ (bb : Fin 256) (n : Fin 512) (e : Fin 256), i = ix3 bb n e := ⟨i 0, i 1, i 2, eq_ix3 i⟩
  have hb := bb.isLt; have hn := n.isLt
  have hR : bb.val * 512 + n.val < 131072 := by omega
  refine (shapeCast_apply _ shapeCasts_S131072x256_S256x512x256 _
    (ix2 (n0 := 131072) (n1 := 256) ⟨bb.val * 512 + n.val, hR⟩ e) (by
      rw [Shape.rowMajor_val_two, Shape.rowMajor_val_three]
      show (bb.val * 512 + n.val) * 256 + e.val = (bb.val * 512 + n.val) * 256 + e.val; rfl)).trans ?_
  exact rows_to_linear (V m c main_v3) (V m c main_v4) (V m c main_arg2) _ _ _ bb n e hR
    (fun k => featureRows_apply m c bb n k) (fun k => weightT_apply m c k e) (congrFun (V_main_arg2 m c) _)

/-- Every execution of the idealized kernel terminates with the result buffer at `linearRelu` of the arguments and
    the arguments unchanged. -/
theorem run : θ_run defs (onTc (τ := τ) (main (F := Ideal))) ⟨m, fun _ => 0, ρ⟩ fun r => ∀ c : Dev nD,
      r.2.mem ((c : Thread nD τ).loc main_v6)
        = linearRelu (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v6 (Pipeline.mem_restRefs_of main_v6 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c)))⟩)
    (run_main m ρ)

end Cert.KernelIdeal.Result

end
-- ==== Proof.lean ====
/-
  The certificate of a patch-wise linear layer with rectifier.

  Both programs take a signal `x : [256, 32768, 4]`, a weight `W : [256, 256]` and a bias `b : [256]`. The signal of
  each batch element is cut into 512 patches of 64 consecutive samples, each patch is flattened channel-major into 256
  features, and every feature vector goes through `max (W · f + b) 0`. On the extended reals both compute

      out[bb, n, e] = max (∑ k, x[bb, n·64 + k mod 64, k / 64] · W[e, k] + b[e]) 0        (Proof/PatchSpec.lean).

  The kernel lays the features out by reshapes and a transpose, multiplies 32 blocks of 4096 rows by the transposed
  weight on the grid, and reshapes the rows back (Proof/KernelEntry.lean, KernelBody.lean, KernelBlocks.lean,
  KernelRun.lean). The reference gathers the patches through an index table `n·64 + p`, transposes, flattens and
  contracts with `W` directly (Proof/RefValue.lean). The two sums run over the same 256 products in the same order,
  so no law of the extended reals beyond reading both sides at an index is needed, and the precondition is not used.
  The idealization rewrote nothing, so `preserves` is trivial.
-/
import proofs.«182232_j52218212385438_1_alg».proof.Defs
import proofs.«182232_j52218212385438_1_alg».proof.Proof.Gen.Kernel
import proofs.«182232_j52218212385438_1_alg».proof.Proof.Gen.Kernel.Skeleton
import proofs.«182232_j52218212385438_1_alg».proof.Proof.Gen.Kernel.Launch
import proofs.«182232_j52218212385438_1_alg».proof.Proof.Gen.Kernel.Points
import proofs.«182232_j52218212385438_1_alg».proof.Proof.Gen.Kernel.Frame
import proofs.«182232_j52218212385438_1_alg».proof.Proof.Gen.KernelIdeal
import proofs.«182232_j52218212385438_1_alg».proof.Proof.Gen.KernelIdeal.Skeleton
import proofs.«182232_j52218212385438_1_alg».proof.Proof.Gen.KernelIdeal.Launch
import proofs.«182232_j52218212385438_1_alg».proof.Proof.Gen.KernelIdeal.Points
import proofs.«182232_j52218212385438_1_alg».proof.Proof.Gen.KernelIdeal.Frame
import proofs.«182232_j52218212385438_1_alg».proof.Proof.Gen.ReferenceIdeal
import proofs.«182232_j52218212385438_1_alg».proof.Proof.Gen.Pre_finite_inputs
import proofs.«182232_j52218212385438_1_alg».proof.Proof.Gen.ReferenceIdeal.Run
import proofs.«182232_j52218212385438_1_alg».proof.Proof.Gen.ReferenceIdeal.Read
import proofs.«182232_j52218212385438_1_alg».proof.Proof.RefValue
import proofs.«182232_j52218212385438_1_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the three arguments both programs end with the result at `linearRelu` of them. -/
theorem algebraic : Cert.algebraic_KernelIdeal_ReferenceIdeal := by
  intro m ρ m' ρ' _ hagree
  refine ⟨fun c => Cert.PatchLinear.linearRelu (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.RefValue.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
